-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S256x1 : Shape := ⟨2, ![256, 1]⟩
abbrev S256x256 : Shape := ⟨2, ![256, 256]⟩
abbrev S256x8192 : Shape := ⟨2, ![256, 8192]⟩
abbrev S1x8192 : Shape := ⟨2, ![1, 8192]⟩
abbrev S256 : Shape := ⟨1, ![256]⟩

abbrev nBuf : Space → Nat
  | .hbm => 41
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S8192, .f32⟩
  | .hbm, ⟨32, _⟩ => ⟨S8192x1, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S8192x256, .bf16⟩
  | .local _ .vmem, ⟨1, _⟩ => ⟨S256x1, .f32⟩
  | .local _ .vmem, ⟨2, _⟩ => ⟨S256x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  bcast_S_S4096 : S_.BroadcastsInDim S4096 (![] : Fin 0 → Fin S4096.rank)
  concatenates_S4096_S4096_S8192_d0 : Shape.Concatenates [S4096, S4096] S8192 0
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192x1_S8192 : S8192x1.ShapeCasts S8192
  reducesTo_S8192_S_d0 : S8192.ReducesTo [0] S_
  dot_S256x256_S8192x256_S256x8192_1_1_0_0_n_n_wf : DotDims.WF S256x256 S8192x256 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v11) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S4096x256, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S4096, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_call2_v0 : Ref sig .tc := ⟨.hbm, 30, rfl⟩
abbrev main_call2_cst : Ref sig .tc := ⟨.hbm, 31, rfl⟩
abbrev main_call2_v1 : Ref sig .tc := ⟨.hbm, 32, rfl⟩
abbrev main_call2_v2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call3_v0 : Ref sig .tc := ⟨.hbm, 40, rfl⟩
abbrev main_call3_cst : Ref sig .tc := ⟨.hbm, 41, rfl⟩
abbrev main_call3_v1 : Ref sig .tc := ⟨.hbm, 42, rfl⟩
abbrev main_call3_v2 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The mathematics both programs compute, stated once over the extended reals and over literal shapes.

  For two batches `a`, `b` of 4096 rows of length 256: every row is divided by `max (‖row‖, ε)` (`normRows`), the two
  batches are laid one after the other into 8192 rows (`catRows`) — in either order of the two steps, since the
  normalisation only looks along a row (`normRows_catRows`) —, and row `r` of the result `Z` is summed against every
  other row: `simSum Z r = ∑_{j ≠ r} exp (2 · ⟨Z r, Z j⟩)`, the diagonal term replaced by zero.  One side writes the
  temperature as a product with `2`, the other as a quotient by `1/2`; on the extended reals these are one function
  (`div_half`), at the infinities too.  The diagonal is found by comparing 32-bit row and column counters, which never
  wrap at these extents (`diag_blocked`, `diag_plain`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Contrast

open Idealize.ShloMosaic Idealize.ShloMosaic.ValueIdx

/-! ## The temperature: a product with two is a quotient by one half -/

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- Dividing by one half is multiplying by two, on every extended real. -/
theorem div_half (x : EReal) :
    Ideal.div x (Ideal.ofBits .f32 0x3F000000#32) = x * Ideal.ofBits .f32 0x40000000#32 := by
  rw [ofBits_half, ofBits_two, Ideal.div_coe (by norm_num)]
  norm_num

/-! ## The diagonal, as 32-bit counters -/

/-- Two counters below `2^32` are equal words exactly when they are equal numbers. -/
theorem cmpi_eq_ofNat (x y : Nat) (hx : x < 4294967296) (hy : y < 4294967296) :
    IntOp.cmpi .eq (BitVec.ofNat 32 x) (BitVec.ofNat 32 y) = if x = y then 1#1 else 0#1 := by
  unfold IntOp.cmpi
  by_cases h : x = y
  · subst h; simp
  · have hne : BitVec.ofNat 32 x ≠ BitVec.ofNat 32 y := by
      intro e
      have := congrArg BitVec.toNat e
      simp only [BitVec.toNat_ofNat] at this
      omega
    have hb : (BitVec.ofNat 32 x == BitVec.ofNat 32 y) = false := beq_eq_false_iff_ne.mpr hne
    simp [h, hb]

/-- Row `256 t + p` counted as block `t` times 256 plus `p`, against column `q`. -/
theorem diag_blocked (t p q : Nat) (ht : t < 32) (hp : p < 256) (hq : q < 8192) :
    IntOp.cmpi .eq (IntOp.addi (Scalar.muli (BitVec.ofNat 32 t) 256#32) (BitVec.ofNat 32 p)) (BitVec.ofNat 32 q)
      = if t * 256 + p = q then 1#1 else 0#1 := by
  have e : IntOp.addi (Scalar.muli (BitVec.ofNat 32 t) 256#32) (BitVec.ofNat 32 p) = BitVec.ofNat 32 (t * 256 + p) := by
    apply BitVec.eq_of_toNat_eq
    simp only [IntOp.addi, Scalar.muli, IntOp.muli, BitVec.toNat_add, BitVec.toNat_mul, BitVec.toNat_ofNat]
    omega
  rw [e]
  exact cmpi_eq_ofNat _ _ (by omega) (by omega)

/-- Row `r` counted plainly (plus a zero), against column `q`. -/
theorem diag_plain (r q : Nat) (hr : r < 8192) (hq : q < 8192) :
    IntOp.cmpi .eq (IntOp.addi (BitVec.ofNat 32 r) 0#32) (BitVec.ofNat 32 q) = if r = q then 1#1 else 0#1 := by
  have e : IntOp.addi (BitVec.ofNat 32 r) 0#32 = BitVec.ofNat 32 r := by
    simp [IntOp.addi]
  rw [e]
  exact cmpi_eq_ofNat _ _ (by omega) (by omega)

/-- A select on a decided bit is the `if`. -/
theorem select_ite {α : Type} (P : Prop) [Decidable P] (x y : α) :
    Scalar.select (if P then 1#1 else 0#1) x y = if P then x else y := by
  by_cases h : P
  · rw [if_pos h, if_pos h]; exact select_one x y
  · rw [if_neg h, if_neg h]; exact select_zero x y

/-! ## Rows: normalising and laying two batches end to end -/

/-- Each row divided by the larger of its Euclidean length and `ε` (the pattern `0x322BCC77`). -/
def normRows {n : Nat} (x : (⟨2, ![n, 256]⟩ : Shape).Idx → EReal) : (⟨2, ![n, 256]⟩ : Shape).Idx → EReal :=
  fun j => Ideal.div (x j)
    (max (Ideal.sqrt (Ideal.ofBits .f32 0x00000000#32 + ∑ k : Fin 256, x (ix2 (j 0) k) * x (ix2 (j 0) k)))
      (Ideal.ofBits .f32 0x322BCC77#32))

/-- Two batches of 4096 rows, the second after the first. -/
def catRows {α : Type} (a b : (⟨2, ![4096, 256]⟩ : Shape).Idx → α) : (⟨2, ![8192, 256]⟩ : Shape).Idx → α :=
  fun j => if h : (j 0).val < 4096 then a (ix2 ⟨(j 0).val, h⟩ (j 1))
    else b (ix2 ⟨(j 0).val - 4096, by have := idx2_lt0 j; omega⟩ (j 1))

/-- The printed concatenation along axis 0 is `catRows`. -/
theorem concatenate_rows {α : Type} (a b : (⟨2, ![4096, 256]⟩ : Shape).Idx → α)
    (h : Shape.Concatenates [(⟨2, ![4096, 256]⟩ : Shape), ⟨2, ![4096, 256]⟩] ⟨2, ![8192, 256]⟩ 0) :
    concatenate ⟨2, ![8192, 256]⟩ 0 [⟨⟨2, ![4096, 256]⟩, a⟩, ⟨⟨2, ![4096, 256]⟩, b⟩] h = catRows a b := by
  funext j
  unfold catRows
  split
  · next hlt =>
    exact concatenate_pair_apply_left 0 a b h j rfl _ (fun c => match c with | ⟨0, _⟩ => rfl | ⟨1, _⟩ => rfl)
  · next hge =>
    have hj := idx2_lt0 j
    refine concatenate_pair_apply_right 0 a b h j rfl rfl _ (fun c hc => ?_) ?_
    · match c with
      | ⟨0, _⟩ => exact absurd rfl hc
      | ⟨1, _⟩ => rfl
    · show (j 0).val - 4096 + 4096 = (j 0).val
      omega

/-- Normalising looks along one row only, so it commutes with laying the batches end to end. -/
theorem normRows_catRows (a b : (⟨2, ![4096, 256]⟩ : Shape).Idx → EReal) :
    normRows (catRows a b) = catRows (normRows a) (normRows b) := by
  funext j
  unfold normRows catRows
  by_cases h : (j 0).val < 4096
  · have h' : ∀ k : Fin 256, ((ix2 (j 0) k : (⟨2, ![8192, 256]⟩ : Shape).Idx) 0).val < 4096 := fun _ => h
    simp only [dif_pos h, dif_pos (h' _)]
  · have h' : ∀ k : Fin 256, ¬((ix2 (j 0) k : (⟨2, ![8192, 256]⟩ : Shape).Idx) 0).val < 4096 := fun _ => h
    simp only [dif_neg h, dif_neg (h' _)]

/-! ## The masked row sums -/

/-- Row `r` against every row `j`: `exp (2 · ⟨Z r, Z j⟩)`, zero on the diagonal, summed over `j`. -/
def simSum (Z : (⟨2, ![8192, 256]⟩ : Shape).Idx → EReal) (r : Fin 8192) : EReal :=
  ∑ j : Fin 8192, if r.val = j.val then Ideal.ofBits .f32 0x00000000#32
    else Ideal.exp ((∑ d : Fin 256, Z (ix2 r d) * Z (ix2 j d)) * Ideal.ofBits .f32 0x40000000#32)

/-! ## The loss, from the positive-pair terms and the masked row sums -/

/-- The mean over the 8192 rows of `-log (P r / S r)`, as both programs spell it: a quotient, a logarithm, a sign,
    a sum from zero, a quotient by the count. -/
def lossOf (P S : (⟨1, ![8192]⟩ : Shape).Idx → EReal) (h : (⟨1, ![8192]⟩ : Shape).ReducesTo [0] ⟨0, ![]⟩)
    (h0 : 0 < (⟨0, ![]⟩ : Shape).numel) : (⟨0, ![]⟩ : Shape).Idx → EReal :=
  Host.divf (F := Ideal) (φ := .f32)
    (Host.reduceAdd (F := Ideal) (φ := .f32) (Host.negf (F := Ideal) (φ := .f32) (Host.log (F := Ideal) (φ := .f32) (Host.divf (F := Ideal) (φ := .f32) P S)))
      (constant (F := Ideal) ⟨0, ![]⟩ .f32 0x00000000#32) h h0)
    (constant (F := Ideal) ⟨0, ![]⟩ .f32 0x46000000#32)

end Cert.Contrast

end
-- ==== Proof.RowBlock.lean ====
/-
  One grid step of the row-sum kernel, read as values.

  At step `t` the body holds the whole matrix `Z` (8192 rows) and its rows `256 t … 256 t + 255`; it forms the
  256 × 8192 table of inner products of those rows with every row, doubles it, exponentiates, replaces the entry
  whose column is the row's own number by zero, and sums along each row.  So entry `p` of what it stores is
  `∑_q [256 t + p ≠ q] · exp (2 · ⟨Z (256 t + p), Z q⟩)`: `stored_apply`.  The inner product is the matrix product
  read at an index (`gram_apply`, both operands contracted along their second axis), the diagonal test two broadcast
  counters compared (`mask_apply`), the row sum a lane reduction read as a finite sum (`rowsum_apply`).
-/
import proofs.«101362_j70188355551618_1_alg».proof.Proof.Gen.KernelIdeal.Frame
import proofs.«101362_j70188355551618_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RowSum

open Cert.KernelIdeal Cert.KernelIdeal.Gen
open Idealize.ShloMosaic Idealize.ShloMosaic.ValueIdx

/-! ## The matrix product, both operands contracted along axis 1 -/

abbrev gramDims := dot_S256x256_S8192x256_S256x8192_1_1_0_0_n_n

theorem gram_lhs_0 (i : S256x8192.Idx) (q : gramDims.contr.Idx) : (gramDims.lhsIdx i q 0).val = (i 0).val := by
  unfold DotDims.lhsIdx
  rw [dif_neg (show ¬(0 : Fin S256x256.rank) ∈ dot_S256x256_S8192x256_S256x8192_1_1_0_0_n_n.lhsBatch by decide),
    dif_pos (show (0 : Fin S256x256.rank) ∈ dot_S256x256_S8192x256_S256x8192_1_1_0_0_n_n.lhsNonContracting by decide)]
  rfl
theorem gram_lhs_1 (i : S256x8192.Idx) (q : gramDims.contr.Idx) : (gramDims.lhsIdx i q 1).val = (q ⟨0, by decide⟩).val :=
  dot_S256x256_S8192x256_S256x8192_1_1_0_0_n_n.lhsIdx_val_of_single rfl i q
theorem gram_rhs_0 (i : S256x8192.Idx) (q : gramDims.contr.Idx) : (gramDims.rhsIdx i q 0).val = (i 1).val := by
  unfold DotDims.rhsIdx
  rw [dif_neg (show ¬(0 : Fin S8192x256.rank) ∈ dot_S256x256_S8192x256_S256x8192_1_1_0_0_n_n.rhsBatch by decide),
    dif_pos (show (0 : Fin S8192x256.rank) ∈ dot_S256x256_S8192x256_S256x8192_1_1_0_0_n_n.rhsNonContracting by decide)]
  rfl
theorem gram_rhs_1 (i : S256x8192.Idx) (q : gramDims.contr.Idx) : (gramDims.rhsIdx i q 1).val = (q ⟨0, by decide⟩).val :=
  dot_S256x256_S8192x256_S256x8192_1_1_0_0_n_n.rhsIdx_val_of_single rfl i q

/-- Entry `(p, q)` of the product into a zero accumulator is the inner product of row `p` of the left operand with
    row `q` of the right one. -/
theorem gram_apply (l : FVec Ideal S256x256 .bf16) (r : FVec Ideal S8192x256 .bf16) (p : Fin 256) (q : Fin 8192) :
    matmul dot_S256x256_S8192x256_S256x8192_1_1_0_0_n_n none l r (constant S256x8192 .f32 0x00000000#32) (ix2 p q)
      = ∑ d : Fin 256, l (ix2 p d) * r (ix2 q d) := by
  simp only [matmul]
  rw [Ideal.matmul_constant_zero_apply,
    ← Equiv.sum_comp (ValueIdx.contrEquiv1 dot_S256x256_S8192x256_S256x8192_1_1_0_0_n_n 256 rfl rfl).symm]
  refine Finset.sum_congr rfl fun k _ => ?_
  have hk := ValueIdx.contrEquiv1_symm_val dot_S256x256_S8192x256_S256x8192_1_1_0_0_n_n 256 rfl rfl k
  have el : dot_S256x256_S8192x256_S256x8192_1_1_0_0_n_n.lhsIdx (ix2 p q)
      ((ValueIdx.contrEquiv1 dot_S256x256_S8192x256_S256x8192_1_1_0_0_n_n 256 rfl rfl).symm k) = ix2 p k :=
    funext fun a => Fin.ext (by
      match a with
      | ⟨0, _⟩ => exact gram_lhs_0 _ _
      | ⟨1, _⟩ => exact (gram_lhs_1 _ _).trans hk)
  have er : dot_S256x256_S8192x256_S256x8192_1_1_0_0_n_n.rhsIdx (ix2 p q)
      ((ValueIdx.contrEquiv1 dot_S256x256_S8192x256_S256x8192_1_1_0_0_n_n 256 rfl rfl).symm k) = ix2 q k :=
    funext fun a => Fin.ext (by
      match a with
      | ⟨0, _⟩ => exact gram_rhs_0 _ _
      | ⟨1, _⟩ => exact (gram_rhs_1 _ _).trans hk)
  rw [el, er]

/-! ## The diagonal test -/

/-- The row counter (a word `w` plus the row's place in the block, broadcast along the row) against the column counter
    (broadcast down the column), at `(p, q)`. -/
theorem mask_apply (w : BitVec 32) (h0 : S256x1.Iotas .tc 32 [0]) (h1 : S1x8192.Iotas .tc 32 [1])
    (hb0 : S256x1.Broadcasts S256x8192) (hb1 : S1x8192.Broadcasts S256x8192) (p : Fin 256) (q : Fin 8192) :
    cmpi .eq (broadcastTo S256x8192 (addi (broadcast S256x1 w) (iota .tc S256x1 32 [0] h0)) hb0)
        (broadcastTo S256x8192 (iota .tc S1x8192 32 [1] h1) hb1) (ix2 p q)
      = IntOp.cmpi .eq (IntOp.addi w (BitVec.ofNat 32 p.val)) (BitVec.ofNat 32 q.val) := by
  show IntOp.cmpi .eq (broadcastTo S256x8192 (addi (broadcast S256x1 w) (iota .tc S256x1 32 [0] h0)) hb0 (ix2 p q))
      (broadcastTo S256x8192 (iota .tc S1x8192 32 [1] h1) hb1 (ix2 p q)) = _
  rw [broadcastTo_apply _ hb0 (ix2 p q) (ix2 p (0 : Fin 1)) (fun a => match a with
      | ⟨0, _⟩ => by show p.val = if (256 : Nat) = 1 then 0 else p.val; rw [if_neg (by decide)]
      | ⟨1, _⟩ => by show 0 = if (1 : Nat) = 1 then 0 else q.val; rw [if_pos rfl]),
    broadcastTo_apply _ hb1 (ix2 p q) (ix2 (0 : Fin 1) q) (fun a => match a with
      | ⟨0, _⟩ => by show 0 = if (1 : Nat) = 1 then 0 else p.val; rw [if_pos rfl]
      | ⟨1, _⟩ => by show q.val = if (8192 : Nat) = 1 then 0 else q.val; rw [if_neg (by decide)])]
  show IntOp.cmpi .eq (IntOp.addi w (iota .tc S256x1 32 [0] h0 (ix2 p (0 : Fin 1)))) (iota .tc S1x8192 32 [1] h1 (ix2 (0 : Fin 1) q)) = _
  rw [iota_single_apply, iota_single_apply]

/-! ## The row sum -/

/-- A lane reduction along axis 1, stored as a column: entry `p` is the sum of row `p`. -/
theorem rowsum_apply (x : FVec Ideal S256x8192 .f32) (h : S256x8192.Reduces [1] S256) (hf : FKind.Formats .f32)
    (hacc : (0x00000000#32 : BitVec 32) = FKind.add.neutral .f32 hf) (hc : S256.ShapeCasts S256x1) (p : Fin 256) :
    shapeCast S256x1 (multiReduction .add [1] S256 x 0x00000000#32 h hf hacc) hc (ix2 p (0 : Fin 1))
      = ∑ q : Fin 8192, x (ix2 p q) := by
  rw [shapeCast_apply _ hc (ix2 p (0 : Fin 1)) (ix1 p) (by
    rw [Shape.rowMajor_val_one, Shape.rowMajor_val_two]
    show p.val = p.val * 1 + 0
    omega)]
  rw [Ideal.multiReduction_add_single]
  refine Finset.sum_congr rfl fun q _ => ?_
  exact congrArg x (funext fun a => Fin.ext (by match a with | ⟨0, _⟩ => rfl | ⟨1, _⟩ => rfl))

/-! ## What one step stores -/

/-- Entry `p` of the block step `i` stores, from the rows `l` it loaded and the whole matrix `r`. -/
theorem stored_apply (i : grid0.Coords) (l : Vec Ideal S256x256 .bf16) (r : Vec Ideal S8192x256 .bf16) (p : Fin 256) :
    k0_pay1 (F := Ideal) i l r (ix2 p (0 : Fin 1))
      = ∑ q : Fin 8192, if (i 0).val * 256 + p.val = q.val then Ideal.ofBits .f32 0x00000000#32
          else Ideal.exp ((∑ d : Fin 256, l (ix2 p d) * r (ix2 q d)) * Ideal.ofBits .f32 0x40000000#32) := by
  unfold k0_pay1
  dsimp only
  refine (rowsum_apply _ _ _ _ _ p).trans ?_
  refine Finset.sum_congr rfl fun q _ => ?_
  show Scalar.select (cmpi .eq _ _ (ix2 p q)) (Ideal.ofBits .f32 0x00000000#32)
    (Ideal.exp (matmul (F := Ideal) dot_S256x256_S8192x256_S256x8192_1_1_0_0_n_n none (shapeCast S256x256 l _) (shapeCast S8192x256 r _)
      (constant S256x8192 .f32 0x00000000#32) (ix2 p q) * Ideal.ofBits .f32 0x40000000#32)) = _
  rw [mask_apply, shapeCast_self, shapeCast_self, gram_apply,
    Cert.Contrast.diag_blocked _ _ _ (i 0).isLt p.isLt q.isLt, Cert.Contrast.select_ite]

end Cert.KernelIdeal.RowSum

end
-- ==== Proof.RowArray.lean ====
/-
  From one grid step to the whole result column.

  The kernel's operand window is the whole 8192 × 256 matrix `Z` at every step (its block index never moves), and its
  result window at step `t` is rows `256 t … 256 t + 255` of the 8192 × 1 result.  The body's first load reads
  rows `256 t + p` of `Z` (`rowsOf_apply`), so what step `t` writes back at place `p` is the masked row sum of row
  `256 t + p` (`stored_eq`), i.e. block `t` of the one function `rowSums Z` (`flushed_eq`); the 32 blocks tile the
  column (row `r` lies in block `r / 256`), so the array ends at `rowSums Z` (`final`).
-/
import proofs.«101362_j70188355551618_1_alg».proof.Proof.Gen.KernelIdeal.Frame
import proofs.«101362_j70188355551618_1_alg».proof.Proof.RowBlock
import Idealize.ShloMosaic.Lib.Pipeline.Value
import Idealize.ShloMosaic.Lib.ValueIdx
import Idealize.ShloMosaic.Lib.Tactic

noncomputable section

open scoped BigOperators

namespace Cert.KernelIdeal.RowSum

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## What the body leaves in its output buffer -/

section AnyValues
variable {F : FTy → Type} [FloatOps F]

/-- The 256 rows the body's first load reads out of the resident matrix. -/
abbrev rowsOf (i : grid0.Coords) (Z : Vec F S8192x256 .bf16) : Vec F S256x256 .bf16 :=
  View.ld Z (Rect.unit (s := S8192x256) (k0_off1 i) S256x256.size (k0_off1_inb i))

/-- The body's one store covers its output buffer, so the buffer ends at the stored value. -/
theorem piece (c : Dev nD) (i : grid0.Coords) (a1 : Memref sig .tc .vmem S8192x256 .bf16) (h1 : a1.IsWhole)
    (a2 : Memref sig .tc .vmem S256x1 .f32) (h2 : a2.IsWhole) (Z : Vec F S8192x256 .bf16) :
    out0_A_1 c i a1 h1 a2 h2 Z = k0_pay1 i (rowsOf i Z) Z := by
  unfold out0_A_1
  rw [View.read_writes_eq_canon _ _ _ (cover0_A_1 c i a1 h1 a2 h2 Z)]
  unfold kernelRun0_A
  dsimp only
  sl_unfold_words
  rw [View.canon_unit_zero hz]
  simp only [View.readAt_eq_ld, h1.read_unread, View.ld_unit_zero (S := S8192x256) hz]
  rfl

/-- Row `p` of those 256 rows is row `256 t + p` of the matrix. -/
theorem rowsOf_apply (i : grid0.Coords) (Z : Vec F S8192x256 .bf16) (p : Fin 256) (d : Fin 256)
    (r : Fin 8192) (hr : r.val = (i 0).val * 256 + p.val) :
    rowsOf i Z (ix2 p d) = Z (ix2 r d) := by
  show Z _ = Z _
  congr 1
  funext a
  apply Fin.ext
  match a with
  | ⟨0, _⟩ =>
    show (k0_off1 i) 0 + 1 * p.val = r.val
    rw [k0_off1_eq]
    show 256 * (i 0).val + 1 * p.val = r.val
    omega
  | ⟨1, _⟩ =>
    show (k0_off1 i) 1 + 1 * d.val = d.val
    rw [k0_off1_eq]
    show 0 + 1 * d.val = d.val
    omega

end AnyValues

/-! ## The result column as one function of the matrix -/

/-- Row `r` of the result: the masked row sum of row `r`. -/
def rowSums (Z : S8192x256.Idx → EReal) : S8192x1.Idx → EReal := fun j => Cert.Contrast.simSum Z (j 0)

/-- What step `i` stores at place `y` is the masked row sum of the row that place stands for. -/
theorem stored_eq (i : grid0.Coords) (Z : Vec Ideal S8192x256 .bf16) (y : S256x1.Idx) (r : Fin 8192)
    (hr : r.val = (i 0).val * 256 + (y 0).val) :
    k0_pay1 (F := Ideal) i (rowsOf i Z) Z y = Cert.Contrast.simSum Z r := by
  obtain ⟨p, u, rfl⟩ : ∃ (p : Fin 256) (u : Fin 1), y = ix2 p u := ⟨y 0, y 1, eq_ix2 y⟩
  obtain rfl : u = 0 := Subsingleton.elim _ _
  rw [stored_apply]
  unfold Cert.Contrast.simSum
  refine Finset.sum_congr rfl fun q _ => ?_
  have hr' : r.val = (i 0).val * 256 + p.val := hr
  refine if_congr (by rw [hr']) rfl ?_
  refine congrArg (fun s => Ideal.exp (s * Ideal.ofBits .f32 0x40000000#32)) ?_
  exact Finset.sum_congr rfl fun d _ => by rw [rowsOf_apply i Z p d r hr']

variable (m : (ℓ : Loc nD τ sig) → Buf (Elt Ideal) ℓ) (ρ : Dev nD → PrngReg)

/-- The matrix the region finds in its operand array, and the block the pipeline stages at step `t`. -/
abbrev zarr (c : Dev nD) : Vec Ideal S8192x256 .bf16 := V m c main_v11
abbrev zblk (c : Dev nD) (t : Fin cfg0.N) : Vec Ideal S8192x256 .bf16 := iblk m c 0 t

/-- The printed index maps over the grid: the operand's block never moves; the result's block is the step. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0 ∧ (grid0.coords t 0).val = t.val :=
  (by decide +kernel : ∀ t : Fin grid0.N, _)

/-- The staged block is the whole matrix. -/
theorem zblk_eq (c : Dev nD) (t : Fin cfg0.N) : zblk m c t = zarr m c := by
  obtain ⟨e0, e1, -, -, -⟩ := idx_facts t
  funext y
  unfold zblk iblk
  rw [View.read_apply]
  show V m c main_v11 (((cfg0.win 0).blk t).view.emb y) = V m c main_v11 y
  congr 1
  funext a
  apply Fin.ext
  match a with
  | ⟨0, _⟩ => show win0_0.index t (0 : Fin 2) * 8192 + 1 * (y 0).val = (y 0).val; omega
  | ⟨1, _⟩ => show win0_0.index t (1 : Fin 2) * 256 + 1 * (y 1).val = (y 1).val; omega

/-- WHAT STEP `t` WRITES BACK is block `t` of `rowSums` of the matrix. -/
theorem flushed_eq (c : Dev nD) (t : Fin cfg0.N) :
    (dats m 0 c).flushed 1 t = ((cfg0.win 1).blk t).view.read (Elt Ideal) (rowSums (zarr m c)) := by
  obtain ⟨-, -, e2, e3, e4⟩ := idx_facts t
  show (cfg0.win 1).cut (grid0.coords t) ((dats m 0 c).after 1 t) = _
  rw [after0_1]
  unfold outsAt0
  rw [piece]
  funext j
  rw [View.read_apply]
  have hj : (j 0).val < 256 := (j 0).isLt
  have hN : cfg0.N = 32 := N_0
  have ht : t.val < 32 := hN ▸ t.isLt
  show k0_pay1 (F := Ideal) (grid0.coords t) (rowsOf (grid0.coords t) (zblk m c t)) (zblk m c t) j
    = Cert.Contrast.simSum (zarr m c) ((((cfg0.win 1).blk t).view.emb j) 0)
  rw [zblk_eq]
  refine stored_eq (grid0.coords t) (zarr m c) j _ ?_
  show win0_1.index t (0 : Fin 2) * 256 + 1 * (j 0).val = (grid0.coords t 0).val * 256 + (j 0).val
  rw [e2, e4]; omega

/-- An index of the column is in step `t`'s block iff each coordinate is in the block's range. -/
theorem mem_blk (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v18).slice (win0_1.rect t)).set ↔ _
  rw [View.set_slice_whole, Rect.mem_set_unit]
  exact Iff.rfl

/-- THE ARRAY after the run: the masked row sums of the matrix the region found. -/
theorem final (c : Dev nD) : (dats m 0 c).arrAt 1 cfg0.N = rowSums (zarr m c) := by
  refine (dats m 0 c).arrAt_eq_of_cover 1 (rowSums (zarr m c)) (fun t _ => flushed_eq m c t) fun i => ?_
  have hi0 : (i 0).val < 8192 := (i 0).isLt
  have hi1 : (i 1).val < 1 := (i 1).isLt
  have hN : cfg0.N = 32 := N_0
  let t : Fin cfg0.N := ⟨(i 0).val / 256, by rw [hN]; omega⟩
  obtain ⟨-, -, e2, e3, -⟩ := idx_facts t
  have e2' : win0_1.index t (0 : Fin 2) = (i 0).val / 256 := e2
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

end Cert.KernelIdeal.RowSum

end
-- ==== Proof.RefSide.lean ====
/-
  The reference, read stage by stage against the specification.

  The reference lays the two batches end to end first and normalises the 8192 rows afterwards; each of its
  `norm` stages is a row's Euclidean length floored at `ε`, so its normalised matrix is `normRows (catRows a b)`
  (`unit_rows_cat`), and the same stages on one batch alone give `normRows a` (`unit_rows_fst`, `unit_rows_snd`).
  Its similarity table divided by the temperature `1/2`, exponentiated, zeroed on the diagonal by an `eye` mask and
  summed along rows is `simSum` of that matrix (`sums_eq`): the quotient by `1/2` is the product with `2`.
-/
import proofs.«101362_j70188355551618_1_alg».proof.Proof.Gen.ReferenceIdeal.Read
import proofs.«101362_j70188355551618_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Sums

open Cert.ReferenceIdeal Cert.ReferenceIdeal.Read Cert.Contrast
open Idealize.ShloMosaic Idealize.ShloMosaic.ValueIdx

variable (a b : S4096x256.Idx → EReal)

/-- The first batch normalised by itself. -/
theorem unit_rows_fst : val_main_v21 (F := Ideal) a = normRows (n := 4096) a := by
  funext j
  rw [val_main_v21_apply, val_main_v20_apply, val_main_v19_apply, val_main_v17_apply, val_main_call2_v2_apply,
    val_main_call2_v1_apply, val_main_v18_apply]
  simp only [val_main_call2_v0_apply, val_main_call2_cst_apply, val_main_cst_3_apply, Ideal.hostDivf_def,
    Ideal.maximumf_def, Ideal.hostUnary_sqrt_def, Ideal.ofBits_def, Ideal.mulf_def]
  have e : ∀ k : Fin 256, idx_main_call2_v1 (idx_main_call2_v2 (idx_main_v20 j)) k = ix2 (j 0) k := fun k =>
    funext fun c => Fin.ext (by match c with | ⟨0, _⟩ => rfl | ⟨1, _⟩ => rfl)
  simp only [e]
  rfl

/-- The second batch normalised by itself. -/
theorem unit_rows_snd : val_main_v26 (F := Ideal) b = normRows (n := 4096) b := by
  funext j
  rw [val_main_v26_apply, val_main_v25_apply, val_main_v24_apply, val_main_v22_apply, val_main_call3_v2_apply,
    val_main_call3_v1_apply, val_main_v23_apply]
  simp only [val_main_call3_v0_apply, val_main_call3_cst_apply, val_main_cst_4_apply, Ideal.hostDivf_def,
    Ideal.maximumf_def, Ideal.hostUnary_sqrt_def, Ideal.ofBits_def, Ideal.mulf_def]
  have e : ∀ k : Fin 256, idx_main_call3_v1 (idx_main_call3_v2 (idx_main_v25 j)) k = ix2 (j 0) k := fun k =>
    funext fun c => Fin.ext (by match c with | ⟨0, _⟩ => rfl | ⟨1, _⟩ => rfl)
  simp only [e]
  rfl

/-- The reference's joined matrix is the two batches end to end. -/
theorem joined : val_main_v0 (F := Ideal) a b = catRows a b := by
  unfold val_main_v0
  exact concatenate_rows a b _

/-- The reference's normalised matrix: the joined rows, each divided by its floored length. -/
theorem unit_rows_cat : val_main_v5 (F := Ideal) a b = normRows (n := 8192) (catRows a b) := by
  funext j
  rw [val_main_v5_apply, val_main_v4_apply, val_main_v3_apply, val_main_v1_apply, val_main_call0_v2_apply,
    val_main_call0_v1_apply, val_main_v2_apply]
  simp only [val_main_call0_v0_apply, val_main_call0_cst_apply, val_main_cst_apply, Ideal.hostDivf_def,
    Ideal.maximumf_def, Ideal.hostUnary_sqrt_def, Ideal.ofBits_def, Ideal.mulf_def, joined]
  have e : ∀ k : Fin 256, idx_main_call0_v1 (idx_main_call0_v2 (idx_main_v4 j)) k = ix2 (j 0) k := fun k =>
    funext fun c => Fin.ext (by match c with | ⟨0, _⟩ => rfl | ⟨1, _⟩ => rfl)
  simp only [e]
  unfold normRows
  rfl

/-- The reference's masked row sums are `simSum` of its normalised matrix. -/
theorem sums_eq (r : Fin 8192) :
    val_main_v16 (F := Ideal) a b (ix1 r) = simSum (val_main_v5 (F := Ideal) a b) r := by
  rw [val_main_v16_apply]
  simp only [val_main_cst_2_apply, Ideal.ofBits_def, Ideal.ofBits_zero_f32, zero_add]
  unfold simSum
  refine Finset.sum_congr rfl fun q _ => ?_
  rw [val_main_v15_apply, val_main_v14_apply, val_main_v13_apply, val_main_v10_apply, val_main_v12_apply,
    val_main_c_apply, val_main_v11_apply, val_main_call1_v1_apply, val_main_call1_v0_apply, val_main_cst_1_apply,
    val_main_v9_apply, val_main_v8_apply, val_main_v6_apply, val_main_v7_apply, val_main_cst_0_apply]
  generalize val_main_v5 (F := Ideal) a b = Z
  have el : ∀ d : Fin 256, lidx_main_v6 (idx_main_v16 (ix1 r) q) d = ix2 r d := fun d =>
    funext fun c => Fin.ext (by match c with | ⟨0, _⟩ => rfl | ⟨1, _⟩ => rfl)
  have er : ∀ d : Fin 256, ridx_main_v6 (idx_main_v16 (ix1 r) q) d = ix2 q d := fun d =>
    funext fun c => Fin.ext (by match c with | ⟨0, _⟩ => rfl | ⟨1, _⟩ => rfl)
  simp only [el, er, Ideal.ofBits_def, Ideal.hostUnary_exp_def, Ideal.hostDivf_def]
  show Scalar.select (IntOp.cmpi .eq (IntOp.addi (BitVec.ofNat 32 r.val) 0#32) (BitVec.ofNat 32 q.val)) _ _ = _
  rw [diag_plain _ _ r.isLt q.isLt, select_ite, div_half]

end Cert.ReferenceIdeal.Sums

end
-- ==== Proof.HostSides.lean ====
/-
  The host lines around the kernel call, and the kernel program's result.

  Before the call the host normalises each batch by itself and lays the two end to end (the narrowing to a shorter
  float format is the identity on the extended reals), so the matrix the region finds is
  `catRows (normRows a) (normRows b)` (`zarr_eq`); it also forms the positive-pair terms, by the very operations the
  reference uses (`pos_eq`).  After the call it reshapes the result column to a vector and takes the mean of
  `-log (pos / sums)` (`result_eq`).  The reference's result is the same expression of its own two vectors
  (`ref_result_eq`), and the two pairs of vectors are equal (`sums_agree`: the masked row sums of one matrix, since
  normalising commutes with joining the batches).
-/
import proofs.«101362_j70188355551618_1_alg».proof.Proof.Gen.KernelIdeal.Frame
import proofs.«101362_j70188355551618_1_alg».proof.Proof.RowArray
import proofs.«101362_j70188355551618_1_alg».proof.Proof.RefSide
import Idealize.ShloMosaic.Lib.Pipeline.Value
import Idealize.ShloMosaic.Lib.StableHlo.Run
import Idealize.ShloMosaic.Lib.ValueIdx

noncomputable section

open scoped BigOperators

namespace Cert.KernelIdeal.RowSum

open Cert.KernelIdeal Cert.KernelIdeal.Gen Cert.Contrast
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument batches on core `c`. -/
abbrev argA (c : Dev nD) : S4096x256.Idx → EReal := m ((c : Thread nD τ).loc main_arg0)
abbrev argB (c : Dev nD) : S4096x256.Idx → EReal := m ((c : Thread nD τ).loc main_arg1)

/-- The matrix the region finds, as the host operations before it compute it. -/
theorem zarr_term (c : Dev nD) : zarr m c
    = truncf (F := Ideal) .bf16 (concatenate S8192x256 0
        [⟨S4096x256, Cert.ReferenceIdeal.Read.val_main_v21 (F := Ideal) (argA m c)⟩,
         ⟨S4096x256, Cert.ReferenceIdeal.Read.val_main_v26 (F := Ideal) (argB m c)⟩]
        concatenates_S4096x256_S4096x256_S8192x256_d0) bitsLt_bf16_f32 := by
  show V m c main_v11 = _
  dsimp only [V, V0]
  simp only [hostOps0, hostOps0_1, hostOps0_2, hostOps0_3, List.flatten_cons, List.flatten_nil, List.append_nil,
    List.cons_append, List.nil_append]
  after_results
  rfl

/-- It is the two batches, each normalised, end to end. -/
theorem zarr_eq (c : Dev nD) :
    zarr m c = catRows (normRows (n := 4096) (argA m c)) (normRows (n := 4096) (argB m c)) := by
  refine (zarr_term m c).trans ?_
  funext j
  show concatenate S8192x256 0
      [⟨S4096x256, Cert.ReferenceIdeal.Read.val_main_v21 (F := Ideal) (argA m c)⟩,
       ⟨S4096x256, Cert.ReferenceIdeal.Read.val_main_v26 (F := Ideal) (argB m c)⟩]
      concatenates_S4096x256_S4096x256_S8192x256_d0 j = _
  rw [Cert.ReferenceIdeal.Sums.unit_rows_fst, Cert.ReferenceIdeal.Sums.unit_rows_snd, concatenate_rows]

set_option maxHeartbeats 2000000 in
/-- The positive-pair terms the host forms before the call are the reference's. -/
theorem pos_eq (c : Dev nD) :
    (V m c main_v17 : S8192.Idx → EReal) = Cert.ReferenceIdeal.Read.val_main_v32 (F := Ideal) (argA m c) (argB m c) := by
  dsimp only [V, V0]
  simp only [hostOps0, hostOps0_1, hostOps0_2, hostOps0_3, List.flatten_cons, List.flatten_nil, List.append_nil,
    List.cons_append, List.nil_append]
  after_results_simp <;> rfl

/-- The kernel program's result: the loss of the positive-pair terms and the region's result column. -/
theorem result_eq (c : Dev nD) :
    Pipeline.afterTail₀ cfgs (dats m) 0 (V0 m) [hostOps1] c main_v24
      = lossOf (V m c main_v17) (shapeCast S8192 ((dats m 0 c).arrAt 1 cfg0.N) shapeCasts_S8192x1_S8192)
          reducesTo_S8192_S_d0 h_S_ := by
  unfold Pipeline.afterTail₀
  show StableHlo.after hostOps1 _ (Proc.devRef .tc main_v24) = _
  after_results
  rw [Pipeline.withArrays_arr spec0 launch0.win.arr_inj c _ _ 1,
    Pipeline.withArrays_of_ne spec0 c (V0 m c) _ main_v17 (by exact (by decide : ∀ w, Pipeline.arrRef spec0 w ≠ main_v17))]
  rfl

/-- The region's result column, reshaped to a vector, is the reference's masked row sums of the same arguments. -/
theorem sums_agree (c : Dev nD) :
    shapeCast S8192 ((dats m 0 c).arrAt 1 cfg0.N) shapeCasts_S8192x1_S8192
      = Cert.ReferenceIdeal.Read.val_main_v16 (F := Ideal) (argA m c) (argB m c) := by
  rw [final]
  funext i
  obtain ⟨r, rfl⟩ : ∃ r : Fin 8192, i = ix1 r := ⟨i 0, eq_ix1 i⟩
  rw [shapeCast_apply _ shapeCasts_S8192x1_S8192 (ix1 r) (ix2 r (0 : Fin 1)) (by
    rw [Shape.rowMajor_val_one, Shape.rowMajor_val_two]
    show r.val * 1 + 0 = r.val
    omega)]
  show simSum (zarr m c) r = _
  rw [Cert.ReferenceIdeal.Sums.sums_eq, Cert.ReferenceIdeal.Sums.unit_rows_cat, normRows_catRows, zarr_eq]

end Cert.KernelIdeal.RowSum

namespace Cert.ReferenceIdeal.Sums

open Cert.ReferenceIdeal Cert.ReferenceIdeal.Gen Cert.ReferenceIdeal.Read Cert.Contrast Idealize.ShloMosaic

/-- The reference's result is the loss of its positive-pair terms and its masked row sums. -/
theorem ref_result_eq (a b : S4096x256.Idx → EReal) :
    val_main_v37 (F := Ideal) a b
      = lossOf (val_main_v32 (F := Ideal) a b) (val_main_v16 (F := Ideal) a b) reducesTo_S8192_S_d0 h_S_ := rfl

end Cert.ReferenceIdeal.Sums

end
-- ==== Proof.lean ====
/-
  The claims: a contrastive (NT-Xent) loss whose masked similarity row sums are computed by a tiled kernel, against
  the plain array program.

  Frames.  The kernel program's frames are its generated frame certificate at the word-level and at the ideal
  instance; the reference has no kernel, and its frame is its generated run with the result dropped.
  Preservation.  The ideal pass rewrote nothing, so the claim is `True`.
  Equality over the extended reals.  Both programs end in the mean of `-log (pos r / sums r)` over the 8192 rows
  (`lossOf`).  The positive-pair terms `pos` are formed by the same host operations on both sides.  The row sums
  are, on the kernel's side, the result column of the tiled call — step `t` writes rows `256 t …` of
  `r ↦ ∑_{j ≠ r} exp (2 ⟨Z r, Z j⟩)`, and the 32 steps tile the column — over the matrix `Z` of the two batches each
  normalised and then joined; on the reference's side the same sums, with the temperature as a quotient by `1/2`,
  over the batches joined and then normalised.  Normalising acts on one row at a time, so the two matrices are one,
  and a quotient by `1/2` is a product with `2` on every extended real.
-/
import proofs.«101362_j70188355551618_1_alg».proof.Defs
import proofs.«101362_j70188355551618_1_alg».proof.Proof.Gen.Kernel
import proofs.«101362_j70188355551618_1_alg».proof.Proof.Gen.Kernel.Skeleton
import proofs.«101362_j70188355551618_1_alg».proof.Proof.Gen.Kernel.Launch
import proofs.«101362_j70188355551618_1_alg».proof.Proof.Gen.Kernel.Points
import proofs.«101362_j70188355551618_1_alg».proof.Proof.Gen.Kernel.Frame
import proofs.«101362_j70188355551618_1_alg».proof.Proof.Gen.KernelIdeal
import proofs.«101362_j70188355551618_1_alg».proof.Proof.Gen.KernelIdeal.Skeleton
import proofs.«101362_j70188355551618_1_alg».proof.Proof.Gen.KernelIdeal.Launch
import proofs.«101362_j70188355551618_1_alg».proof.Proof.Gen.KernelIdeal.Points
import proofs.«101362_j70188355551618_1_alg».proof.Proof.Gen.KernelIdeal.Frame
import proofs.«101362_j70188355551618_1_alg».proof.Proof.Gen.ReferenceIdeal
import proofs.«101362_j70188355551618_1_alg».proof.Proof.Gen.ReferenceIdeal.Run
import proofs.«101362_j70188355551618_1_alg».proof.Proof.Gen.ReferenceIdeal.Read
import proofs.«101362_j70188355551618_1_alg».proof.Proof.Gen.Pre_finite_inputs
import proofs.«101362_j70188355551618_1_alg».proof.Proof.HostSides
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run with its result named: the loss the host lines after the call compute from the
    region's result column, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v24)
            = Pipeline.afterTail₀ Cert.KernelIdeal.cfgs (Cert.KernelIdeal.Gen.dats m) 0 (Cert.KernelIdeal.Gen.V0 m)
                [Cert.KernelIdeal.Gen.hostOps1] c Cert.KernelIdeal.main_v24
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c =>
    ⟨(h c).2 Cert.KernelIdeal.main_v24 (Pipeline.mem_restRefs_of Cert.KernelIdeal.main_v24 (by decide) (by decide)),
     ((h c).2 Cert.KernelIdeal.main_arg0 (Pipeline.mem_restRefs_of Cert.KernelIdeal.main_arg0 (by decide) (by decide))).trans
       (Cert.KernelIdeal.Gen.W_main_arg0 m (Cert.KernelIdeal.Gen.dats m) c),
     ((h c).2 Cert.KernelIdeal.main_arg1 (Pipeline.mem_restRefs_of Cert.KernelIdeal.main_arg1 (by decide) (by decide))).trans
       (Cert.KernelIdeal.Gen.W_main_arg1 m (Cert.KernelIdeal.Gen.dats m) c)⟩)
    (Cert.KernelIdeal.Gen.run_main m ρ)

/-- From arguments that agree, both programs end at the same loss. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2, Cert.ReferenceIdeal.Sums.ref_result_eq,
    Cert.KernelIdeal.RowSum.result_eq, Cert.KernelIdeal.RowSum.pos_eq, Cert.KernelIdeal.RowSum.sums_agree]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
